-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096x1 : Shape := ⟨3, ![8, 4096, 1]⟩
abbrev S8x1x4096 : Shape := ⟨3, ![8, 1, 4096]⟩
abbrev S1x256x3 : Shape := ⟨3, ![1, 256, 3]⟩
abbrev S1x4096x3 : Shape := ⟨3, ![1, 4096, 3]⟩
abbrev S1x256x1 : Shape := ⟨3, ![1, 256, 1]⟩
abbrev S1x1x4096 : Shape := ⟨3, ![1, 1, 4096]⟩
abbrev S1x4096 : Shape := ⟨2, ![1, 4096]⟩
abbrev S4096x3 : Shape := ⟨2, ![4096, 3]⟩
abbrev S4096 : Shape := ⟨1, ![4096]⟩
abbrev S4096x1 : Shape := ⟨2, ![4096, 1]⟩
abbrev S256x3 : Shape := ⟨2, ![256, 3]⟩
abbrev S256 : Shape := ⟨1, ![256]⟩
abbrev S256x1 : Shape := ⟨2, ![256, 1]⟩
abbrev S256x4096 : Shape := ⟨2, ![256, 4096]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x1, .f32⟩
  | .hbm, ⟨3, _⟩ => ⟨S8x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_19 : BitVec 32 := 0#32
  let v34 : BitVec 1 := Scalar.cmpi .ne v33 c0_i32_19
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S4096x3_S4096 : S4096x3.Reduces [1] S4096
  shapeCasts_S4096_S4096x1 : S4096.ShapeCasts S4096x1
  transposes_S4096x1_p1_0_S1x4096 : S4096x1.Transposes [1, 0] S1x4096
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  bitsLt_bf16_f32 : FTy.bits .bf16 < FTy.bits .f32
  reduces_S256x3_S256 : S256x3.Reduces [1] S256
  shapeCasts_S256_S256x1 : S256.ShapeCasts S256x1
  broadcasts_S256x1_S256x4096 : S256x1.Broadcasts S256x4096
  broadcasts_S1x4096_S256x4096 : S1x4096.Broadcasts S256x4096
  reduces_S256x4096_S256 : S256x4096.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x4096_S4096 : S256x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096x1_S_d0_1_2 : S8x4096x1.ReducesTo [0, 1, 2] S_
  h_S_ : 0 < S_.numel
  reducesTo_S8x1x4096_S_d0_1_2 : S8x1x4096.ReducesTo [0, 1, 2] S_
  dot_S256x3_S4096x3_S256x4096_1_1_0_0_n_n_wf : DotDims.WF S256x3 S4096x3 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x4096x3.size a
  hwx0_0 : ∀ i : grid0.Coords, EltTy.bits .f32 = 32 ∨ (Rect.block (s := S8x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x4096x1.size a
  hwx0_2 : ∀ i : grid0.Coords, EltTy.bits .f32 = 32 ∨ (Rect.block (s := S8x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S256x3_S4096x3_S256x4096_1_1_0_0_n_n : DotDims S256x3 S4096x3 S256x4096 where
  lhsContracting := [1]
  rhsContracting := [1]
  lhsNonContracting := [0]
  rhsNonContracting := [0]
  lhsBatch := []
  rhsBatch := []
  wf := dot_S256x3_S4096x3_S256x4096_1_1_0_0_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The Chamfer distance of two batches of point clouds, over the extended reals, as ONE function of the two arrays:
  for clouds `X b`, `Y b` (8 batches of 4096 points in 3-space) the squared distance of point `r` of `X b` to point
  `q` of `Y b` is written as `(|x|² + |y|²) - 2·(x·y)`, `near1` is its minimum over `q`, `near2` its minimum over `r`,
  and the result is the mean of `near1` plus the mean of `near2`. Both programs compute exactly this term; what differs
  between them is only how the index sets are laid out and in which order the minima and the sums are taken, so the
  laws collected here are about minima (idempotent, commutative, associative: a minimum over a set is determined by
  its lower bounds) and about sums over index sets that differ by an axis of extent one.
-/
import Idealize.ShloMosaic.PureOps.Ideal
import Idealize.ShloMosaic.Lib.ValueIdx

noncomputable section

open scoped BigOperators

namespace Cert.Chamfer

open Idealize.ShloMosaic Idealize.ShloMosaic.ValueIdx

/-- A batch of eight clouds of 4096 points with three coordinates each. -/
abbrev Clouds : Type := (⟨3, ![8, 4096, 3]⟩ : Shape).Idx → EReal

/-- The value of the literal `2.0`; never evaluated, both programs multiply by the same word. -/
def two : EReal := Ideal.ofBits .f32 0x40000000#32
/-- The value every minimum starts from (the word of `+inf`); never evaluated. -/
def top : EReal := Ideal.ofBits .f32 0x7F800000#32
/-- The value every sum starts from (the zero word). -/
def zero : EReal := Ideal.ofBits .f32 0x00000000#32
/-- The number of points over which each mean is taken, `32768.0`. -/
def count : EReal := Ideal.ofBits .f32 0x47000000#32

/-- `|x|²` of point `r` of cloud `b`. -/
def sqn (X : Clouds) (b : Fin 8) (r : Fin 4096) : EReal := ∑ d : Fin 3, X (ix3 b r d) * X (ix3 b r d)
/-- `x · y` of point `r` of `X b` and point `q` of `Y b`. -/
def dotp (X Y : Clouds) (b : Fin 8) (r q : Fin 4096) : EReal := ∑ d : Fin 3, X (ix3 b r d) * Y (ix3 b q d)
/-- The squared distance as both programs spell it. -/
def dist (X Y : Clouds) (b : Fin 8) (r q : Fin 4096) : EReal := (sqn X b r + sqn Y b q) - two * dotp X Y b r q

/-- The minimum of a family indexed by `Fin n`, started from `top`. -/
def minOver {n : Nat} (f : Fin n → EReal) : EReal := (Finset.univ : Finset (Fin n)).fold min top f

/-- From each point of `X b` to the nearest point of `Y b`. -/
def near1 (X Y : Clouds) (b : Fin 8) (r : Fin 4096) : EReal := minOver fun q => dist X Y b r q
/-- From each point of `Y b` to the nearest point of `X b`. -/
def near2 (X Y : Clouds) (b : Fin 8) (q : Fin 4096) : EReal := minOver fun r => dist X Y b r q

/-- A mean as the host computes it: the sum started from the zero word, divided by the count. -/
def mean (s : EReal) : EReal := Ideal.div (zero + s) count

/-- The Chamfer distance. -/
def chamfer (X Y : Clouds) : EReal :=
  mean (∑ b : Fin 8, ∑ r : Fin 4096, near1 X Y b r) + mean (∑ b : Fin 8, ∑ q : Fin 4096, near2 X Y b q)

/-! ## Minima by their lower bounds -/

/-- A lower bound of a minimum is a lower bound of the start and of every member. -/
theorem le_minOver {n : Nat} (f : Fin n → EReal) (z : EReal) : z ≤ minOver f ↔ z ≤ top ∧ ∀ k, z ≤ f k := by
  unfold minOver
  rw [Finset.le_fold_min]
  exact and_congr_right fun _ => ⟨fun h k => h k (Finset.mem_univ k), fun h k _ => h k⟩

/-- Two extended reals with the same lower bounds are equal. -/
theorem eq_of_lower_bounds {a b : EReal} (h : ∀ z, z ≤ a ↔ z ≤ b) : a = b :=
  le_antisymm ((h a).mp le_rfl) ((h b).mpr le_rfl)

/-! ## Sums over index sets with an axis of extent one -/

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over `[n0, n1, 1]` the last coordinate is `0`. -/
theorem sum_idx3_last_one {n0 n1 : Nat} (f : (⟨3, ![n0, n1, 1]⟩ : Shape).Idx → EReal) :
    ∑ i, f i = ∑ a : Fin n0, ∑ b : Fin n1, f (ix3 a b 0) := by
  rw [sum_idx3]
  refine Finset.sum_congr rfl fun a _ => Finset.sum_congr rfl fun b _ => ?_
  rw [Fin.sum_univ_one]

/-- Over `[n0, 1, n2]` the middle coordinate is `0`. -/
theorem sum_idx3_mid_one {n0 n2 : Nat} (f : (⟨3, ![n0, 1, n2]⟩ : Shape).Idx → EReal) :
    ∑ i, f i = ∑ a : Fin n0, ∑ c : Fin n2, f (ix3 a 0 c) := by
  rw [sum_idx3]
  refine Finset.sum_congr rfl fun a _ => ?_
  rw [Fin.sum_univ_one]

end Cert.Chamfer

end
-- ==== Proof.KernelPieces.lean ====
import proofs.«163719_j76811195121928_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! What each case of the body leaves in the two outputs' staging buffers and in the two scratch buffers, as the
    body's own arithmetic terms of the blocks it loaded. -/

theorem out_B_2 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : ¬cond0_0 i) (hc1 : ¬cond0_1 i)
    (x0 : Vec F S1x256x3 .f32) (x1 : Vec F S1x4096x3 .f32) (xs0 xs1 : Vec F S1x4096 .f32) :
    out0_B_2 c i a2 h2 a3 h3 a4 h4 a5 h5 a6 h6 a7 h7 hc0 hc1 x0 x1 xs0 xs1 = k0_pay5 x0 x1 xs1 := by
  unfold out0_B_2
  rw [View.read_writes_eq_canon _ _ _ (cover0_B_2 c i a2 h2 a3 h3 a4 h4 a5 h5 a6 h6 a7 h7 hc0 hc1 x0 x1 xs0 xs1)]
  unfold kernelRun0_B
  dsimp only
  sl_unfold_words
  rw [View.canon_unit_zero hz3]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem sout_B_0 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : ¬cond0_0 i) (hc1 : ¬cond0_1 i)
    (x0 : Vec F S1x256x3 .f32) (x1 : Vec F S1x4096x3 .f32) (xs0 xs1 : Vec F S1x4096 .f32) :
    sout0_B_0 c i a2 h2 a3 h3 a4 h4 a5 h5 a6 h6 a7 h7 hc0 hc1 x0 x1 xs0 xs1 = k0_pay6 x0 x1 xs1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem out_C_2 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : ¬cond0_0 i) (hc1 : cond0_1 i)
    (x0 : Vec F S1x256x3 .f32) (x1 : Vec F S1x4096x3 .f32) (xs0 xs1 : Vec F S1x4096 .f32) :
    out0_C_2 c i a2 h2 a3 h3 a4 h4 a5 h5 a6 h6 a7 h7 hc0 hc1 x0 x1 xs0 xs1 = k0_pay5 x0 x1 xs1 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem sout_C_0 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : ¬cond0_0 i) (hc1 : cond0_1 i)
    (x0 : Vec F S1x256x3 .f32) (x1 : Vec F S1x4096x3 .f32) (xs0 xs1 : Vec F S1x4096 .f32) :
    sout0_C_0 c i a2 h2 a3 h3 a4 h4 a5 h5 a6 h6 a7 h7 hc0 hc1 x0 x1 xs0 xs1 = k0_pay6 x0 x1 xs1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem out_C_3 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : ¬cond0_0 i) (hc1 : cond0_1 i)
    (x0 : Vec F S1x256x3 .f32) (x1 : Vec F S1x4096x3 .f32) (xs0 xs1 : Vec F S1x4096 .f32) :
    out0_C_3 c i a2 h2 a3 h3 a4 h4 a5 h5 a6 h6 a7 h7 hc0 hc1 x0 x1 xs0 xs1 = k0_pay1 (k0_pay6 x0 x1 xs1 xs0) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem sout_A_1 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : cond0_0 i) (hc1 : ¬cond0_1 i)
    (x0 : Vec F S1x256x3 .f32) (x1 : Vec F S1x4096x3 .f32) :
    sout0_A_1 c i a2 h2 a3 h3 a4 h4 a5 h5 a6 h6 a7 h7 hc0 hc1 x0 x1 = k0_pay3 x1 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_unit_zero hz2]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem out_A_2 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : cond0_0 i) (hc1 : ¬cond0_1 i)
    (x0 : Vec F S1x256x3 .f32) (x1 : Vec F S1x4096x3 .f32) :
    out0_A_2 c i a2 h2 a3 h3 a4 h4 a5 h5 a6 h6 a7 h7 hc0 hc1 x0 x1 = k0_pay5 x0 x1 (k0_pay3 x1) := by
  unfold out0_A_2
  rw [View.read_writes_eq_canon _ _ _ (cover0_A_2 c i a2 h2 a3 h3 a4 h4 a5 h5 a6 h6 a7 h7 hc0 hc1 x0 x1)]
  unfold kernelRun0_A
  dsimp only
  sl_unfold_words
  rw [View.canon_unit_zero hz3]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

theorem sout_A_0 (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x256x1 .f32) (h4 : a4.IsWhole) (a5 : Memref sig .tc .vmem S1x1x4096 .f32) (h5 : a5.IsWhole) (a6 : Memref sig .tc .vmem S1x4096 .f32) (h6 : a6.IsWhole) (a7 : Memref sig .tc .vmem S1x4096 .f32) (h7 : a7.IsWhole) (hc0 : cond0_0 i) (hc1 : ¬cond0_1 i)
    (x0 : Vec F S1x256x3 .f32) (x1 : Vec F S1x4096x3 .f32) :
    sout0_A_0 c i a2 h2 a3 h3 a4 h4 a5 h5 a6 h6 a7 h7 hc0 hc1 x0 x1 = k0_pay6 x0 x1 (k0_pay3 x1) k0_pay2 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x4096) hz2, View.readCov_unit_zero (S := S1x4096) _ hz2]
  simp only [View.readAt_eq_ld, h2.read_unread, h3.read_unread, h6.read_unread, h7.read_unread, View.ld_unit_zero (S := S1x256x3) hz3, View.ld_unit_zero (S := S1x4096x3) hz3, View.ld_unit_zero (S := S1x4096) hz2, View.readCov_unit_zero (S := S1x4096) _ hz2]

end Cert.KernelIdeal.Pieces
end
-- ==== Proof.KernelPayload.lean ====
/-
  The body's arithmetic, read at an index over the extended reals: what each stored vector holds at a coordinate, as a
  term of the blocks the body loaded.
-/
import proofs.«163719_j76811195121928_1_alg».proof.Proof.Gen.KernelIdeal.Skeleton
import proofs.«163719_j76811195121928_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Chamfer

/-! ## Three layout steps the body takes: a column made of a vector, and a column spread over the lanes -/

/-- An `[a]` vector cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a, 1]` column cast to `[1, a, 1]` reads, at `(u, i, w)`, the column at `(i, w)`. -/
theorem shapeCast_a1_1a1_apply {α : Type} {a : ℕ} (x : (⟨2, ![a, 1]⟩ : Shape).Idx → α) (h : (⟨2, ![a, 1]⟩ : Shape).ShapeCasts ⟨3, ![1, a, 1]⟩)
    (u : Fin 1) (i : Fin a) (w : Fin 1) : shapeCast ⟨3, ![1, a, 1]⟩ x h (ix3 u i w) = x (ix2 i w) :=
  shapeCast_ab_1ab_apply x h u i w

/-! ## Reductions of a matrix along one axis, read at a coordinate -/

/-- A `multi_reduction <add>` of an `[a, b]` matrix along its lanes, from the zero word: at row `i` the sum of that row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ d : Fin b, src (ix2 i d) := by
  refine (Ideal.multiReduction_add_single src _ h hφ hacc (ix1 i)).trans ?_
  refine Finset.sum_congr rfl fun d _ => congrArg src ?_
  exact funext fun c => Fin.ext (by match c with | ⟨0, _⟩ => rfl | ⟨1, _⟩ => rfl)

/-- A `multi_reduction <minimumf>` along one axis, started from the `+inf` word, is at each kept index the minimum
    over that axis's coordinates. -/
theorem multiReduction_min_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = minOver fun k : Fin (s.size a) => src (h.lift j k) := by
  rw [multiReduction_minimumf_eq_fold, h.fold_filter_drop_single]
  rfl

/-- Along the lanes of an `[a, b]` matrix: at row `i` the minimum of that row. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (i : Fin a) :
    multiReduction .minimumf [1] ⟨1, ![a]⟩ src 0x7F800000#32 h hφ hacc (ix1 i) = minOver fun q : Fin b => src (ix2 i q) := by
  refine (multiReduction_min_single src h hφ hacc (ix1 i)).trans ?_
  refine congrArg minOver (funext fun q => congrArg src ?_)
  exact funext fun c => Fin.ext (by match c with | ⟨0, _⟩ => rfl | ⟨1, _⟩ => rfl)

/-- Along the rows of an `[a, b]` matrix: at lane `q` the minimum of that column. -/
theorem colMin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ src 0x7F800000#32 h hφ hacc (ix1 q) = minOver fun r : Fin a => src (ix2 r q) := by
  refine (multiReduction_min_single src h hφ hacc (ix1 q)).trans ?_
  refine congrArg minOver (funext fun r => congrArg src ?_)
  exact funext fun c => Fin.ext (by match c with | ⟨0, _⟩ => rfl | ⟨1, _⟩ => rfl)

/-! ## The squared norms of the second cloud's points, laid along the lanes -/

/-- The row of squared norms the first tile of a batch caches: lane `q` holds `|y_q|²` of the loaded cloud. -/
theorem pay3_apply (x1 : Vec Ideal S1x4096x3 .f32) (u : Fin 1) (q : Fin 4096) :
    k0_pay3 (F := Ideal) x1 (ix2 u q) = ∑ d : Fin 3, x1 (ix3 (0 : Fin 1) q d) * x1 (ix3 (0 : Fin 1) q d) := by
  unfold k0_pay3
  rw [shapeCast_self]
  have hu : u = 0 := Fin.ext (by omega)
  subst hu
  rw [transpose_ix2_apply, shapeCast_a_a1_apply]
  refine (rowSum_apply _ reduces_S4096x3_S4096 _ _ q).trans ?_
  refine Finset.sum_congr rfl fun d _ => ?_
  rw [mulf_apply, shapeCast_1ab_ab_apply]

/-! ## The cross term: a product with one contracted axis -/

theorem lhs_dots_0 (i : S256x4096.Idx) (k : dot_S256x3_S4096x3_S256x4096_1_1_0_0_n_n.contr.Idx) :
    (dot_S256x3_S4096x3_S256x4096_1_1_0_0_n_n.lhsIdx i k 0).val = (i 0).val := by
  unfold DotDims.lhsIdx
  rw [dif_neg (show ¬(0 : Fin S256x3.rank) ∈ dot_S256x3_S4096x3_S256x4096_1_1_0_0_n_n.lhsBatch by decide), dif_pos (show (0 : Fin S256x3.rank) ∈ dot_S256x3_S4096x3_S256x4096_1_1_0_0_n_n.lhsNonContracting by decide)]
  rfl
theorem lhs_dots_1 (i : S256x4096.Idx) (k : dot_S256x3_S4096x3_S256x4096_1_1_0_0_n_n.contr.Idx) :
    (dot_S256x3_S4096x3_S256x4096_1_1_0_0_n_n.lhsIdx i k 1).val = (k ⟨0, by decide⟩).val :=
  dot_S256x3_S4096x3_S256x4096_1_1_0_0_n_n.lhsIdx_val_of_single rfl i k
theorem rhs_dots_0 (i : S256x4096.Idx) (k : dot_S256x3_S4096x3_S256x4096_1_1_0_0_n_n.contr.Idx) :
    (dot_S256x3_S4096x3_S256x4096_1_1_0_0_n_n.rhsIdx i k 0).val = (i 1).val := by
  unfold DotDims.rhsIdx
  rw [dif_neg (show ¬(0 : Fin S4096x3.rank) ∈ dot_S256x3_S4096x3_S256x4096_1_1_0_0_n_n.rhsBatch by decide), dif_pos (show (0 : Fin S4096x3.rank) ∈ dot_S256x3_S4096x3_S256x4096_1_1_0_0_n_n.rhsNonContracting by decide)]
  rfl
theorem rhs_dots_1 (i : S256x4096.Idx) (k : dot_S256x3_S4096x3_S256x4096_1_1_0_0_n_n.contr.Idx) :
    (dot_S256x3_S4096x3_S256x4096_1_1_0_0_n_n.rhsIdx i k 1).val = (k ⟨0, by decide⟩).val :=
  dot_S256x3_S4096x3_S256x4096_1_1_0_0_n_n.rhsIdx_val_of_single rfl i k

/-- The tile's matrix product into the zero accumulator: entry `(r, q)` is the inner product of row `r` of the left
    operand with row `q` of the right one. -/
theorem dots_apply (l : FVec Ideal S256x3 .bf16) (rr : FVec Ideal S4096x3 .bf16) (r : Fin 256) (q : Fin 4096) :
    matmul dot_S256x3_S4096x3_S256x4096_1_1_0_0_n_n none l rr (constant S256x4096 .f32 0x00000000#32) (ix2 r q)
      = ∑ d : Fin 3, l (ix2 r d) * rr (ix2 q d) := by
  refine (Ideal.matmul_constant_zero_apply dot_S256x3_S4096x3_S256x4096_1_1_0_0_n_n none l rr (ix2 r q)).trans ?_
  rw [← Equiv.sum_comp (ValueIdx.contrEquiv1 dot_S256x3_S4096x3_S256x4096_1_1_0_0_n_n 3 rfl rfl).symm]
  refine Finset.sum_congr rfl fun k _ => ?_
  have hk := ValueIdx.contrEquiv1_symm_val dot_S256x3_S4096x3_S256x4096_1_1_0_0_n_n 3 rfl rfl k
  have el : dot_S256x3_S4096x3_S256x4096_1_1_0_0_n_n.lhsIdx (ix2 r q) ((ValueIdx.contrEquiv1 dot_S256x3_S4096x3_S256x4096_1_1_0_0_n_n 3 rfl rfl).symm k) = ix2 r k := funext fun a => Fin.ext (by
    match a with
    | ⟨0, _⟩ => exact lhs_dots_0 _ _
    | ⟨1, _⟩ => exact (lhs_dots_1 _ _).trans hk)
  have er : dot_S256x3_S4096x3_S256x4096_1_1_0_0_n_n.rhsIdx (ix2 r q) ((ValueIdx.contrEquiv1 dot_S256x3_S4096x3_S256x4096_1_1_0_0_n_n 3 rfl rfl).symm k) = ix2 q k := funext fun a => Fin.ext (by
    match a with
    | ⟨0, _⟩ => exact rhs_dots_0 _ _
    | ⟨1, _⟩ => exact (rhs_dots_1 _ _).trans hk)
  rw [el, er]

/-! ## The tile of squared distances and its two minima -/

/-- Entry `(r, q)` of a tile: `(|x_r|² + n2 q) - 2·(x_r · y_q)`, with `n2` the cached row of squared norms. -/
theorem pay4_apply (x0 : Vec Ideal S1x256x3 .f32) (x1 : Vec Ideal S1x4096x3 .f32) (v13 : Vec Ideal S1x4096 .f32)
    (r : Fin 256) (q : Fin 4096) :
    k0_pay4 (F := Ideal) x0 x1 v13 (ix2 r q)
      = ((∑ d : Fin 3, x0 (ix3 (0 : Fin 1) r d) * x0 (ix3 (0 : Fin 1) r d)) + v13 (ix2 (0 : Fin 1) q))
          - two * ∑ d : Fin 3, x0 (ix3 (0 : Fin 1) r d) * x1 (ix3 (0 : Fin 1) q d) := by
  unfold k0_pay4
  rw [subf_apply, addf_apply, mulf_apply, broadcast_apply, broadcastTo_a1_ab_apply, broadcastTo_1b_ab_apply,
    shapeCast_a_a1_apply, dots_apply]
  have e1 : multiReduction (F := Ideal) .add [1] S256 (mulf (shapeCast S256x3 x0 shapeCasts_S1x256x3_S256x3) (shapeCast S256x3 x0 shapeCasts_S1x256x3_S256x3))
      0x00000000#32 reduces_S256x3_S256 (.inl rfl) rfl (ix1 r)
      = ∑ d : Fin 3, x0 (ix3 (0 : Fin 1) r d) * x0 (ix3 (0 : Fin 1) r d) := by
    refine (rowSum_apply _ reduces_S256x3_S256 _ _ r).trans ?_
    refine Finset.sum_congr rfl fun d _ => ?_
    rw [mulf_apply, shapeCast_1ab_ab_apply]
  refine congrArg₂ (· - ·) (congrArg (· + _) e1) (congrArg (_ * ·) (Finset.sum_congr rfl fun d _ => ?_))
  rw [truncf_apply, truncf_apply, shapeCast_1ab_ab_apply, shapeCast_1ab_ab_apply]

/-- What a tile writes for `dist1`: at row `r` the minimum over the lanes of that row of the tile. -/
theorem pay5_apply (x0 : Vec Ideal S1x256x3 .f32) (x1 : Vec Ideal S1x4096x3 .f32) (v13 : Vec Ideal S1x4096 .f32)
    (u : Fin 1) (r : Fin 256) (w : Fin 1) :
    k0_pay5 (F := Ideal) x0 x1 v13 (ix3 u r w) = minOver fun q : Fin 4096 => k0_pay4 (F := Ideal) x0 x1 v13 (ix2 r q) := by
  unfold k0_pay5
  rw [shapeCast_a1_1a1_apply, shapeCast_a_a1_apply]
  exact rowMin_apply _ reduces_S256x4096_S256 _ _ r

/-- What a tile leaves in the running minimum: at lane `q` the smaller of what was there and the minimum over the
    rows of that lane of the tile. -/
theorem pay6_apply (x0 : Vec Ideal S1x256x3 .f32) (x1 : Vec Ideal S1x4096x3 .f32) (v13 v27 : Vec Ideal S1x4096 .f32)
    (u : Fin 1) (q : Fin 4096) :
    k0_pay6 (F := Ideal) x0 x1 v13 v27 (ix2 u q)
      = min (v27 (ix2 u q)) (minOver fun r : Fin 256 => k0_pay4 (F := Ideal) x0 x1 v13 (ix2 r q)) := by
  unfold k0_pay6
  rw [shapeCast_self, minimumf_apply, shapeCast_a_1a_apply]
  refine congrArg (min _) ?_
  exact colMin_apply _ reduces_S256x4096_S4096 _ _ q

/-- The last tile copies the running minimum into the output block, lane for lane. -/
theorem pay1_apply (v : Vec Ideal S1x4096 .f32) (u w : Fin 1) (q : Fin 4096) :
    k0_pay1 (F := Ideal) v (ix3 u w q) = v (ix2 w q) := by
  unfold k0_pay1
  exact shapeCast_ab_1ab_apply v _ u w q

/-- The running minimum is started from the `+inf` word in every lane. -/
theorem pay2_apply (i : S1x4096.Idx) : k0_pay2 (F := Ideal) i = top := by
  unfold k0_pay2
  rw [shapeCast_self]
  rfl

end Cert.KernelIdeal.Payload
end
-- ==== Proof.KernelValue.lean ====
/-
  What the kernel's two result arrays hold after the run, and the scalar its host tail makes of them.

  The grid visits batch `b = t / 16` tile by tile (`t % 16`): each tile holds 256 points of the first cloud and the whole
  second cloud. Two scratch rows are carried from tile to tile: the squared norms of the second cloud's points, written
  at a batch's first tile and only read afterwards, and the running minimum over the rows seen so far of the squared
  distance to each point of the second cloud. The running minimum is followed through the tiles by its lower bounds:
  after tile `j` an extended real is below it exactly when it is below the start value and below the distance from
  every one of the first `256·(j+1)` points. After the last tile that is the minimum over all 4096 points, and that is
  the tile which writes the row out. The other result is written tile by tile and needs no history. From
  blocks to arrays: the index maps are decided once over the grid, a block is read at a symbolic point, and every index
  of a result array lies in the block of the point named by arithmetic on its coordinates.
-/
import proofs.«163719_j76811195121928_1_alg».proof.Proof.Gen.KernelIdeal.Frame
import proofs.«163719_j76811195121928_1_alg».proof.Proof.KernelPieces
import proofs.«163719_j76811195121928_1_alg».proof.Proof.KernelPayload
import proofs.«163719_j76811195121928_1_alg».proof.Proof.Spec
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

variable (m : (ℓ : Loc nD τ sig) → Buf (Elt Ideal) ℓ) (ρ : Dev nD → PrngReg)

/-- The two clouds as the region finds them. -/
abbrev X1 (c : Dev nD) : Clouds := V m c main_arg0
abbrev X2 (c : Dev nD) : Clouds := V m c main_arg1
/-- The blocks a point loads, at their literal types. -/
abbrev xblk (c : Dev nD) (t : Fin cfg0.N) : Vec Ideal S1x256x3 .f32 := iblk m c 0 t
abbrev yblk (c : Dev nD) (t : Fin cfg0.N) : Vec Ideal S1x4096x3 .f32 := iblk m c 1 t

theorem tlt (t : Fin cfg0.N) : t.val < 128 := lt_of_lt_of_eq t.isLt N_0

/-- The batch a grid point works on, -/
def bOf (t : Fin cfg0.N) : Fin 8 := ⟨t.val / 16, by have := tlt t; omega⟩
/-- and the point of the first cloud that row `r` of its tile is. -/
def rowOf (t : Fin cfg0.N) (r : Fin 256) : Fin 4096 := ⟨t.val % 16 * 256 + r.val, by have := r.isLt; omega⟩

/-- The printed index maps, decided over the grid. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-! ## The loaded blocks are the clouds read where the windows say -/

theorem xblk_apply (c : Dev nD) (t : Fin cfg0.N) (u : Fin 1) (r : Fin 256) (d : Fin 3) :
    xblk m c t (ix3 u r d) = X1 m c (ix3 (bOf t) (rowOf t r) d) := by
  obtain ⟨e0, e1, e2, -⟩ := idx_facts t
  have hu := u.isLt
  show V m c main_arg0 (((cfg0.win 0).blk t).view.emb (ix3 u r d)) = V m c main_arg0 _
  refine congrArg (V m c main_arg0) (funext fun a => Fin.ext ?_)
  match a with
  | ⟨0, _⟩ => show win0_0.index t (0 : Fin 3) * 1 + 1 * u.val = t.val / 16; omega
  | ⟨1, _⟩ => show win0_0.index t (1 : Fin 3) * 256 + 1 * r.val = t.val % 16 * 256 + r.val; omega
  | ⟨2, _⟩ => show win0_0.index t (2 : Fin 3) * 3 + 1 * d.val = d.val; omega

theorem yblk_apply (c : Dev nD) (t : Fin cfg0.N) (u : Fin 1) (q : Fin 4096) (d : Fin 3) :
    yblk m c t (ix3 u q d) = X2 m c (ix3 (bOf t) q d) := by
  obtain ⟨-, -, -, e0, e1, e2, -⟩ := idx_facts t
  have hu := u.isLt
  show V m c main_arg1 (((cfg0.win 1).blk t).view.emb (ix3 u q d)) = V m c main_arg1 _
  refine congrArg (V m c main_arg1) (funext fun a => Fin.ext ?_)
  match a with
  | ⟨0, _⟩ => show win0_1.index t (0 : Fin 3) * 1 + 1 * u.val = t.val / 16; omega
  | ⟨1, _⟩ => show win0_1.index t (1 : Fin 3) * 4096 + 1 * q.val = q.val; omega
  | ⟨2, _⟩ => show win0_1.index t (2 : Fin 3) * 3 + 1 * d.val = d.val; omega

/-! ## One tile, in terms of the clouds -/

/-- The row of squared norms a batch's first tile computes. -/
theorem nrm_first (c : Dev nD) (t : Fin cfg0.N) (u : Fin 1) (q : Fin 4096) :
    k0_pay3 (F := Ideal) (yblk m c t) (ix2 u q) = sqn (X2 m c) (bOf t) q := by
  rw [Payload.pay3_apply]
  unfold sqn
  exact Finset.sum_congr rfl fun d _ => by rw [yblk_apply]

/-- With the cached row holding the squared norms, a tile's entry `(r, q)` is the squared distance between point
    `rowOf t r` of the first cloud and point `q` of the second. -/
theorem tile (c : Dev nD) (t : Fin cfg0.N) (n2 : Vec Ideal S1x4096 .f32)
    (hn2 : ∀ (u : Fin 1) (q : Fin 4096), n2 (ix2 u q) = sqn (X2 m c) (bOf t) q) (r : Fin 256) (q : Fin 4096) :
    k0_pay4 (F := Ideal) (xblk m c t) (yblk m c t) n2 (ix2 r q) = dist (X1 m c) (X2 m c) (bOf t) (rowOf t r) q := by
  rw [Payload.pay4_apply, hn2]
  unfold Chamfer.dist sqn dotp
  simp only [xblk_apply, yblk_apply]

/-- What a tile stores for the first result. -/
theorem o2_val (c : Dev nD) (t : Fin cfg0.N) (n2 : Vec Ideal S1x4096 .f32)
    (hn2 : ∀ (u : Fin 1) (q : Fin 4096), n2 (ix2 u q) = sqn (X2 m c) (bOf t) q) (u : Fin 1) (r : Fin 256) (w : Fin 1) :
    k0_pay5 (F := Ideal) (xblk m c t) (yblk m c t) n2 (ix3 u r w) = near1 (X1 m c) (X2 m c) (bOf t) (rowOf t r) := by
  rw [Payload.pay5_apply]
  unfold near1
  exact congrArg minOver (funext fun q => tile m c t n2 hn2 r q)

/-- One step of the running minimum, by lower bounds: if `a` at lane `q` is bounded below exactly by the start value
    and the distances from the points before this tile, the tile's update is bounded below exactly by the start value
    and the distances from the points up to and including this tile. -/
theorem acc_step (c : Dev nD) (t : Fin cfg0.N) (n2 : Vec Ideal S1x4096 .f32)
    (hn2 : ∀ (u : Fin 1) (q : Fin 4096), n2 (ix2 u q) = sqn (X2 m c) (bOf t) q) (a : Vec Ideal S1x4096 .f32)
    (u : Fin 1) (q : Fin 4096)
    (ha : ∀ z : EReal, z ≤ a (ix2 u q) ↔ z ≤ top ∧ ∀ r : Fin 4096, r.val < t.val % 16 * 256 → z ≤ dist (X1 m c) (X2 m c) (bOf t) r q)
    (z : EReal) :
    z ≤ k0_pay6 (F := Ideal) (xblk m c t) (yblk m c t) n2 a (ix2 u q)
      ↔ z ≤ top ∧ ∀ r : Fin 4096, r.val < (t.val % 16 + 1) * 256 → z ≤ dist (X1 m c) (X2 m c) (bOf t) r q := by
  rw [Payload.pay6_apply, le_min_iff, ha, le_minOver]
  simp only [tile m c t n2 hn2]
  constructor
  · rintro ⟨⟨h1, h2⟩, -, h3⟩
    refine ⟨h1, fun r hr => ?_⟩
    by_cases hlt : r.val < t.val % 16 * 256
    · exact h2 r hlt
    · have h := h3 ⟨r.val - t.val % 16 * 256, by omega⟩
      have e : rowOf t ⟨r.val - t.val % 16 * 256, by omega⟩ = r :=
        Fin.ext (by show t.val % 16 * 256 + (r.val - t.val % 16 * 256) = r.val; omega)
      rwa [e] at h
  · rintro ⟨h1, h2⟩
    exact ⟨⟨h1, fun r hr => h2 r (by omega)⟩, h1, fun r' => h2 (rowOf t r')
      (by show t.val % 16 * 256 + r'.val < _; have := r'.isLt; omega)⟩

/-! ## What each case of the body leaves, at a grid point -/

theorem nrm_A (c : Dev nD) (t : Fin cfg0.N) (h0 : t.val % 16 = 0) (h1 : ¬t.val % 16 = 15) :
    (outsAt0 m c t.val t.isLt).2.2.2 = k0_pay3 (yblk m c t) := by
  rw [outsAt0_A m c t h0 h1]
  dsimp only
  exact Pieces.sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem acc_A (c : Dev nD) (t : Fin cfg0.N) (h0 : t.val % 16 = 0) (h1 : ¬t.val % 16 = 15) :
    (outsAt0 m c t.val t.isLt).2.2.1 = k0_pay6 (xblk m c t) (yblk m c t) (k0_pay3 (yblk m c t)) (k0_pay2 (F := Ideal)) := by
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem o2_A (c : Dev nD) (t : Fin cfg0.N) (h0 : t.val % 16 = 0) (h1 : ¬t.val % 16 = 15) :
    (outsAt0 m c t.val t.isLt).1 = k0_pay5 (xblk m c t) (yblk m c t) (k0_pay3 (yblk m c t)) := by
  rw [outsAt0_A m c t h0 h1]
  dsimp only
  exact Pieces.out_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem acc_B (c : Dev nD) (t : Fin cfg0.N) (h0 : ¬t.val % 16 = 0) (h1 : ¬t.val % 16 = 15) :
    (outsAt0 m c t.val t.isLt).2.2.1 = k0_pay6 (xblk m c t) (yblk m c t) (outsAt0 m c (t.val - 1) (Nat.lt_of_le_of_lt (Nat.sub_le _ _) t.isLt)).2.2.2 (outsAt0 m c (t.val - 1) (Nat.lt_of_le_of_lt (Nat.sub_le _ _) t.isLt)).2.2.1 := by
  rw [outsAt0_B m c t h0 h1]
  dsimp only
  exact Pieces.sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem o2_B (c : Dev nD) (t : Fin cfg0.N) (h0 : ¬t.val % 16 = 0) (h1 : ¬t.val % 16 = 15) :
    (outsAt0 m c t.val t.isLt).1 = k0_pay5 (xblk m c t) (yblk m c t) (outsAt0 m c (t.val - 1) (Nat.lt_of_le_of_lt (Nat.sub_le _ _) t.isLt)).2.2.2 := by
  rw [outsAt0_B m c t h0 h1]
  dsimp only
  exact Pieces.out_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem acc_C (c : Dev nD) (t : Fin cfg0.N) (h0 : ¬t.val % 16 = 0) (h1 : t.val % 16 = 15) :
    (outsAt0 m c t.val t.isLt).2.2.1 = k0_pay6 (xblk m c t) (yblk m c t) (outsAt0 m c (t.val - 1) (Nat.lt_of_le_of_lt (Nat.sub_le _ _) t.isLt)).2.2.2 (outsAt0 m c (t.val - 1) (Nat.lt_of_le_of_lt (Nat.sub_le _ _) t.isLt)).2.2.1 := by
  rw [outsAt0_C m c t h0 h1]
  dsimp only
  exact Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem o2_C (c : Dev nD) (t : Fin cfg0.N) (h0 : ¬t.val % 16 = 0) (h1 : t.val % 16 = 15) :
    (outsAt0 m c t.val t.isLt).1 = k0_pay5 (xblk m c t) (yblk m c t) (outsAt0 m c (t.val - 1) (Nat.lt_of_le_of_lt (Nat.sub_le _ _) t.isLt)).2.2.2 := by
  rw [outsAt0_C m c t h0 h1]
  dsimp only
  exact Pieces.out_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem o3_C (c : Dev nD) (t : Fin cfg0.N) (h0 : ¬t.val % 16 = 0) (h1 : t.val % 16 = 15) :
    (outsAt0 m c t.val t.isLt).2.1 = k0_pay1 (k0_pay6 (xblk m c t) (yblk m c t) (outsAt0 m c (t.val - 1) (Nat.lt_of_le_of_lt (Nat.sub_le _ _) t.isLt)).2.2.2 (outsAt0 m c (t.val - 1) (Nat.lt_of_le_of_lt (Nat.sub_le _ _) t.isLt)).2.2.1) := by
  rw [outsAt0_C m c t h0 h1]
  dsimp only
  exact Pieces.out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem nrm_B (c : Dev nD) (t : Fin cfg0.N) (h0 : ¬t.val % 16 = 0) (h1 : ¬t.val % 16 = 15) :
    (outsAt0 m c t.val t.isLt).2.2.2 = (outsAt0 m c (t.val - 1) (Nat.lt_of_le_of_lt (Nat.sub_le _ _) t.isLt)).2.2.2 := by
  rw [outsAt0_B m c t h0 h1]
  rfl

theorem nrm_C (c : Dev nD) (t : Fin cfg0.N) (h0 : ¬t.val % 16 = 0) (h1 : t.val % 16 = 15) :
    (outsAt0 m c t.val t.isLt).2.2.2 = (outsAt0 m c (t.val - 1) (Nat.lt_of_le_of_lt (Nat.sub_le _ _) t.isLt)).2.2.2 := by
  rw [outsAt0_C m c t h0 h1]
  rfl

/-- Away from a batch's first tile the three cases agree on the carried rows and on the first result. -/
theorem nrm_later (c : Dev nD) (t : Fin cfg0.N) (h0 : ¬t.val % 16 = 0) : (outsAt0 m c t.val t.isLt).2.2.2 = (outsAt0 m c (t.val - 1) (Nat.lt_of_le_of_lt (Nat.sub_le _ _) t.isLt)).2.2.2 := by
  by_cases h1 : t.val % 16 = 15
  · exact nrm_C m c t h0 h1
  · exact nrm_B m c t h0 h1

theorem acc_later (c : Dev nD) (t : Fin cfg0.N) (h0 : ¬t.val % 16 = 0) :
    (outsAt0 m c t.val t.isLt).2.2.1 = k0_pay6 (xblk m c t) (yblk m c t) (outsAt0 m c (t.val - 1) (Nat.lt_of_le_of_lt (Nat.sub_le _ _) t.isLt)).2.2.2 (outsAt0 m c (t.val - 1) (Nat.lt_of_le_of_lt (Nat.sub_le _ _) t.isLt)).2.2.1 := by
  by_cases h1 : t.val % 16 = 15
  · exact acc_C m c t h0 h1
  · exact acc_B m c t h0 h1

theorem o2_later (c : Dev nD) (t : Fin cfg0.N) (h0 : ¬t.val % 16 = 0) :
    (outsAt0 m c t.val t.isLt).1 = k0_pay5 (xblk m c t) (yblk m c t) (outsAt0 m c (t.val - 1) (Nat.lt_of_le_of_lt (Nat.sub_le _ _) t.isLt)).2.2.2 := by
  by_cases h1 : t.val % 16 = 15
  · exact o2_C m c t h0 h1
  · exact o2_B m c t h0 h1

/-! ## The two carried rows after every point -/

/-- After point `n`: the cached row holds the squared norms of batch `n / 16`'s second cloud, and the running minimum
    is bounded below exactly by the start value and the distances from the first `256·(n % 16 + 1)` points. -/
def Inv (c : Dev nD) (n : ℕ) (h : n < cfg0.N) : Prop :=
  (∀ (u : Fin 1) (q : Fin 4096), (outsAt0 m c n h).2.2.2 (ix2 u q) = sqn (X2 m c) (bOf ⟨n, h⟩) q)
  ∧ ∀ (u : Fin 1) (q : Fin 4096) (z : EReal), z ≤ (outsAt0 m c n h).2.2.1 (ix2 u q)
      ↔ z ≤ top ∧ ∀ r : Fin 4096, r.val < (n % 16 + 1) * 256 → z ≤ dist (X1 m c) (X2 m c) (bOf ⟨n, h⟩) r q

theorem inv_first (c : Dev nD) (t : Fin cfg0.N) (h0 : t.val % 16 = 0) : Inv m c t.val t.isLt := by
  have h1 : ¬t.val % 16 = 15 := by omega
  refine ⟨fun u q => ?_, fun u q z => ?_⟩
  · rw [nrm_A m c t h0 h1]
    exact nrm_first m c t u q
  · rw [acc_A m c t h0 h1]
    refine acc_step m c t _ (nrm_first m c t) _ u q (fun z => ?_) z
    rw [Payload.pay2_apply]
    exact ⟨fun hz => ⟨hz, fun r hr => absurd hr (by omega)⟩, fun hz => hz.1⟩

theorem inv_later (c : Dev nD) (t : Fin cfg0.N) (h0 : ¬t.val % 16 = 0)
    (ih : Inv m c (t.val - 1) (Nat.lt_of_le_of_lt (Nat.sub_le _ _) t.isLt)) : Inv m c t.val t.isLt := by
  have hb : bOf ⟨t.val - 1, (Nat.lt_of_le_of_lt (Nat.sub_le _ _) t.isLt)⟩ = bOf t := Fin.ext (by show (t.val - 1) / 16 = t.val / 16; omega)
  have hm : (t.val - 1) % 16 + 1 = t.val % 16 := by omega
  obtain ⟨ihn, iha⟩ := ih
  rw [hb] at ihn iha
  rw [hm] at iha
  refine ⟨fun u q => ?_, fun u q z => ?_⟩
  · rw [nrm_later m c t h0]
    exact ihn u q
  · rw [acc_later m c t h0]
    exact acc_step m c t _ ihn _ u q (iha u q) z

theorem inv (c : Dev nD) : ∀ (n : ℕ) (h : n < cfg0.N), Inv m c n h
  | 0, h => inv_first m c ⟨0, h⟩ rfl
  | n + 1, h => by
    by_cases h0 : (n + 1) % 16 = 0
    · exact inv_first m c ⟨n + 1, h⟩ h0
    · exact inv_later m c ⟨n + 1, h⟩ h0 (inv c n (Nat.lt_of_succ_lt h))

/-- The cached row any point computes with holds its batch's squared norms. -/
theorem nrm_prev (c : Dev nD) (t : Fin cfg0.N) (h0 : ¬t.val % 16 = 0) (u : Fin 1) (q : Fin 4096) :
    (outsAt0 m c (t.val - 1) (Nat.lt_of_le_of_lt (Nat.sub_le _ _) t.isLt)).2.2.2 (ix2 u q) = sqn (X2 m c) (bOf t) q := by
  have hb : bOf ⟨t.val - 1, (Nat.lt_of_le_of_lt (Nat.sub_le _ _) t.isLt)⟩ = bOf t := Fin.ext (by show (t.val - 1) / 16 = t.val / 16; omega)
  rw [← hb]
  exact (inv m c (t.val - 1) _).1 u q

/-! ## What the two outputs' staging buffers hold -/

theorem o2_eq (c : Dev nD) (t : Fin cfg0.N) (u : Fin 1) (r : Fin 256) (w : Fin 1) :
    (outsAt0 m c t.val t.isLt).1 (ix3 u r w) = near1 (X1 m c) (X2 m c) (bOf t) (rowOf t r) := by
  by_cases h0 : t.val % 16 = 0
  · rw [o2_A m c t h0 (by omega)]
    exact o2_val m c t _ (nrm_first m c t) u r w
  · rw [o2_later m c t h0]
    exact o2_val m c t _ (nrm_prev m c t h0) u r w

theorem o3_eq (c : Dev nD) (t : Fin cfg0.N) (h1 : t.val % 16 = 15) (u w : Fin 1) (q : Fin 4096) :
    (outsAt0 m c t.val t.isLt).2.1 (ix3 u w q) = near2 (X1 m c) (X2 m c) (bOf t) q := by
  have h0 : ¬t.val % 16 = 0 := by omega
  rw [o3_C m c t h0 h1, Payload.pay1_apply, ← acc_later m c t h0]
  refine eq_of_lower_bounds fun z => ?_
  rw [(inv m c t.val t.isLt).2 w q z]
  unfold near2
  rw [le_minOver]
  refine and_congr_right fun _ => ⟨fun h r => h r (by have := r.isLt; omega), fun h r _ => h r⟩

/-! ## From blocks to arrays -/

/-- The first result array: at `(b, r, 0)` the distance from point `r` of `X b` to the nearest point of `Y b`. -/
abbrev G2 (c : Dev nD) : S8x4096x1.Idx → Elt Ideal .f32 := fun i => near1 (X1 m c) (X2 m c) (i 0) (i 1)
/-- The second result array: at `(b, 0, q)` the distance from point `q` of `Y b` to the nearest point of `X b`. -/
abbrev G3 (c : Dev nD) : S8x1x4096.Idx → Elt Ideal .f32 := fun i => near2 (X1 m c) (X2 m c) (i 0) (i 2)

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  obtain ⟨-, -, -, -, -, -, e0, e1, e2, -⟩ := idx_facts t
  refine funext fun (j : S1x256x1.Idx) => ?_
  obtain ⟨u, r, w, rfl⟩ : ∃ (u : Fin 1) (r : Fin 256) (w : Fin 1), j = ix3 u r w := ⟨j 0, j 1, j 2, eq_ix3 j⟩
  have hu := u.isLt
  show (outsAt0 m c t.val t.isLt).1 (ix3 u r w) = G2 m c (((cfg0.win 2).blk t).view.emb (ix3 u r w))
  rw [o2_eq]
  refine congrArg₂ (near1 (X1 m c) (X2 m c)) (Fin.ext ?_) (Fin.ext ?_)
  · show t.val / 16 = win0_2.index t (0 : Fin 3) * 1 + 1 * u.val; omega
  · show t.val % 16 * 256 + r.val = win0_2.index t (1 : Fin 3) * 256 + 1 * r.val; omega

theorem flushed3_eq (c : Dev nD) (t : Fin cfg0.N) (hf : (cfg0.win 3).flush t = true) :
    (dats m 0 c).flushed 3 t = ((cfg0.win 3).blk t).view.read (Elt Ideal) (G3 m c) := by
  have h1 : t.val % 16 = 15 := (flush0_3 t).mp hf
  show (cfg0.win 3).cut (grid0.coords t) ((dats m 0 c).after 3 t) = _
  rw [after0_3]
  obtain ⟨-, -, -, -, -, -, -, -, -, e0, e1, e2⟩ := idx_facts t
  refine funext fun (j : S1x1x4096.Idx) => ?_
  obtain ⟨u, w, q, rfl⟩ : ∃ (u : Fin 1) (w : Fin 1) (q : Fin 4096), j = ix3 u w q := ⟨j 0, j 1, j 2, eq_ix3 j⟩
  have hu := u.isLt
  show (outsAt0 m c t.val t.isLt).2.1 (ix3 u w q) = G3 m c (((cfg0.win 3).blk t).view.emb (ix3 u w q))
  rw [o3_eq m c t h1]
  refine congrArg₂ (near2 (X1 m c) (X2 m c)) (Fin.ext ?_) (Fin.ext ?_)
  · show t.val / 16 = win0_3.index t (0 : Fin 3) * 1 + 1 * u.val; omega
  · show q.val = win0_3.index t (2 : Fin 3) * 4096 + 1 * q.val; omega

theorem mem_blk2 (t : Fin cfg0.N) (i : S8x4096x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0_0).slice (win0_2.rect t)).set ↔ _
  rw [View.set_slice_whole, Rect.mem_set_unit]
  exact Iff.rfl

theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Row `r` of batch `b` is written by tile `r / 256` of that batch. -/
theorem cover2 (i : S8x4096x1.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  have hlt : (i 0).val * 16 + (i 1).val / 256 < 128 := by omega
  obtain ⟨t, tv⟩ : ∃ t : Fin cfg0.N, t.val = (i 0).val * 16 + (i 1).val / 256 := ⟨⟨_, lt_of_lt_of_eq hlt N_0.symm⟩, rfl⟩
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1 ≤ (i 2).val ∧ (i 2).val < win0_2.index t (2 : Fin 3) * 1 + 1; omega

/-- Batch `b`'s row of the second result is written by that batch's last tile. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hlt : (i 0).val * 16 + 15 < 128 := by omega
  obtain ⟨t, tv⟩ : ∃ t : Fin cfg0.N, t.val = (i 0).val * 16 + 15 := ⟨⟨_, lt_of_lt_of_eq hlt N_0.symm⟩, rfl⟩
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

theorem final2 (c : Dev nD) : (dats m 0 c).arrAt 2 cfg0.N = G2 m c :=
  (dats m 0 c).arrAt_eq_of_cover 2 (G2 m c) (fun t _ => flushed2_eq m c t) cover2

theorem final3 (c : Dev nD) : (dats m 0 c).arrAt 3 cfg0.N = G3 m c :=
  (dats m 0 c).arrAt_eq_of_cover 3 (G3 m c) (flushed3_eq m c) cover3

/-! ## The host tail: two means and their sum -/

theorem tail_eq (c : Dev nD) :
    Pipeline.afterTail₀ cfgs (dats m) 0 (V0 m) [hostOps1] c main_v5 = fun _ => chamfer (X1 m c) (X2 m c) := by
  unfold Pipeline.afterTail₀
  show StableHlo.after hostOps1 _ (Proc.devRef .tc main_v5) = _
  after_results
  have a2 : Pipeline.withArrays (cfgs 0).spec c (V0 m c) (fun w => (dats m 0 c).arrAt w (cfgs 0).N) (Proc.devRef .tc main_v0_0)
      = G2 m c := (Pipeline.withArrays_arr spec0 launch0.win.arr_inj c _ _ 2).trans (final2 m c)
  have a3 : Pipeline.withArrays (cfgs 0).spec c (V0 m c) (fun w => (dats m 0 c).arrAt w (cfgs 0).N) (Proc.devRef .tc main_v0_1)
      = G3 m c := (Pipeline.withArrays_arr spec0 launch0.win.arr_inj c _ _ 3).trans (final3 m c)
  rw [a2, a3]
  funext i
  show Ideal.div (Ideal.hostReduceAdd reducesTo_S8x4096x1_S_d0_1_2 (G2 m c) (Ideal.ofBits .f32 0x00000000#32) i) (Ideal.ofBits .f32 0x47000000#32)
      + Ideal.div (Ideal.hostReduceAdd reducesTo_S8x1x4096_S_d0_1_2 (G3 m c) (Ideal.ofBits .f32 0x00000000#32) i) (Ideal.ofBits .f32 0x47000000#32) = _
  rw [Ideal.hostReduceAdd_total _ (fun b => b.elim0), Ideal.hostReduceAdd_total _ (fun b => b.elim0),
    sum_idx3_last_one, sum_idx3_mid_one]
  rfl

/-! ## The run, read -/

/-- Every weakly fair execution of the idealized kernel ends with its result at the Chamfer distance of the two
    clouds, and the clouds unchanged. -/
theorem run : θ_run defs (onTc (τ := τ) (main (F := Ideal))) ⟨m, fun _ => 0, ρ⟩ fun r => ∀ c : Dev nD,
      r.2.mem ((c : Thread nD τ).loc main_v5) = (fun _ => chamfer (X1 m c) (X2 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v5 (Pipeline.mem_restRefs_of main_v5 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result as one function of the two point clouds: every stage of its host program read at an index,
  down to the arguments. Its two minima are host reductions along one axis, read as minima over that axis's coordinates;
  its two means are total sums over rank-2 index sets, read as double sums.
-/
import proofs.«163719_j76811195121928_1_alg».proof.Defs
import proofs.«163719_j76811195121928_1_alg».proof.Proof.Gen.ReferenceIdeal.Run
import proofs.«163719_j76811195121928_1_alg».proof.Proof.Gen.ReferenceIdeal.Read
import proofs.«163719_j76811195121928_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Chamfer

/-! ## A host minimum along the last or the middle axis of a rank-3 array -/

/-- Along the last axis: at `(i, j)` the minimum, from the initial value, over the last coordinate. -/
theorem hostMin_last {a b c : ℕ} (x : (⟨3, ![a, b, c]⟩ : Shape).Idx → EReal) (init : (⟨0, ![]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce (FloatOps.minimumf (F := Ideal) (φ := .f32)) x init h' hu (ix2 i j)
      = (Finset.univ : Finset (Fin c)).fold min (init (Shape.Idx.first hu)) fun q => x (ix3 i j q) := by
  refine (Host.reduce_eq_fold_single _ x init h' h hu (ix2 i j)).trans ?_
  show (Finset.univ : Finset (Fin c)).fold min _ _ = _
  refine congrArg (Finset.fold min _ · _) (funext fun q => congrArg x ?_)
  exact funext fun d => Fin.ext (by match d with | ⟨0, _⟩ => rfl | ⟨1, _⟩ => rfl | ⟨2, _⟩ => rfl)

/-- Along the middle axis: at `(i, q)` the minimum, from the initial value, over the middle coordinate. -/
theorem hostMin_mid {a b c : ℕ} (x : (⟨3, ![a, b, c]⟩ : Shape).Idx → EReal) (init : (⟨0, ![]⟩ : Shape).Idx → EReal)
    (h' : (⟨3, ![a, b, c]⟩ : Shape).ReducesTo [1] ⟨2, ![a, c]⟩) (h : (⟨3, ![a, b, c]⟩ : Shape).Reduces [1] ⟨2, ![a, c]⟩)
    (hu : 0 < (⟨0, ![]⟩ : Shape).numel) (i : Fin a) (q : Fin c) :
    Host.reduce (FloatOps.minimumf (F := Ideal) (φ := .f32)) x init h' hu (ix2 i q)
      = (Finset.univ : Finset (Fin b)).fold min (init (Shape.Idx.first hu)) fun j => x (ix3 i j q) := by
  refine (Host.reduce_eq_fold_single _ x init h' h hu (ix2 i q)).trans ?_
  show (Finset.univ : Finset (Fin b)).fold min _ _ = _
  refine congrArg (Finset.fold min _ · _) (funext fun j => congrArg x ?_)
  exact funext fun d => Fin.ext (by match d with | ⟨0, _⟩ => rfl | ⟨1, _⟩ => rfl | ⟨2, _⟩ => rfl)

/-! ## The matrix of squared distances -/

/-- Entry `(b, r, q)` of the reference's distance array is `dist`. -/
theorem v12_apply (x0 x1 : Clouds) (b : Fin 8) (r q : Fin 4096) :
    val_main_v12 (F := Ideal) x0 x1 (ix3 b r q) = dist x0 x1 b r q := by
  rw [val_main_v12_apply, val_main_v9_apply, val_main_v11_apply, val_main_v7_apply, val_main_v8_apply, val_main_v5_apply,
    val_main_v6_apply, val_main_v1_apply, val_main_v3_apply, val_main_v10_apply, val_main_v4_apply]
  have e1 : ∀ k : Fin 3, idx_main_v1 (idx_main_v5 (idx_main_v7 (ix3 b r q))) k = ix3 b r k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b r q))) k = ix3 b q k := fun k =>
    funext fun a => Fin.ext (by match a with | ⟨0, _⟩ => rfl | ⟨1, _⟩ => rfl | ⟨2, _⟩ => rfl)
  have el : ∀ k : Fin 3, lidx_main_v4 (ix3 b r q) k = ix3 b r k := fun k =>
    funext fun a => Fin.ext (by match a with | ⟨0, _⟩ => rfl | ⟨1, _⟩ => rfl | ⟨2, _⟩ => rfl)
  have er : ∀ k : Fin 3, ridx_main_v4 (ix3 b r q) k = ix3 b q k := fun k =>
    funext fun a => Fin.ext (by match a with | ⟨0, _⟩ => rfl | ⟨1, _⟩ => rfl | ⟨2, _⟩ => rfl)
  simp only [e1, e3, el, er, val_main_v0_apply, val_main_v2_apply, val_main_cst_apply, val_main_cst_0_apply, val_main_cst_1_apply]
  show (Ideal.ofBits .f32 0x00000000#32 + _ + (Ideal.ofBits .f32 0x00000000#32 + _)) - Ideal.ofBits .f32 0x40000000#32 * _ = _
  rw [Ideal.ofBits_zero_f32, zero_add, zero_add]
  rfl

/-! ## The two nearest-neighbour arrays -/

theorem v13_apply (x0 x1 : Clouds) (b : Fin 8) (r : Fin 4096) :
    val_main_v13 (F := Ideal) x0 x1 (ix2 b r) = near1 x0 x1 b r := by
  unfold val_main_v13
  refine (hostMin_last _ _ reducesTo_S8x4096x4096_S8x4096_d2 (by decide) h_S_ b r).trans ?_
  unfold near1 minOver
  exact congrArg (Finset.fold min _ · _) (funext fun q => v12_apply x0 x1 b r q)

theorem v14_apply (x0 x1 : Clouds) (b : Fin 8) (q : Fin 4096) :
    val_main_v14 (F := Ideal) x0 x1 (ix2 b q) = near2 x0 x1 b q := by
  unfold val_main_v14
  refine (hostMin_mid _ _ reducesTo_S8x4096x4096_S8x4096_d1 (by decide) h_S_ b q).trans ?_
  unfold near2 minOver
  exact congrArg (Finset.fold min _ · _) (funext fun r => v12_apply x0 x1 b r q)

/-! ## The result -/

/-- The reference's result is the Chamfer distance of its arguments. -/
theorem result_eq (x0 x1 : Clouds) (i : S_.Idx) : val_main_v19 (F := Ideal) x0 x1 i = chamfer x0 x1 := by
  rw [val_main_v19_apply, val_main_v16_apply, val_main_v18_apply, val_main_v15_apply, val_main_v17_apply, sum_idx2, sum_idx2]
  simp only [v13_apply, v14_apply]
  rfl

end Cert.ReferenceIdeal.RefValue

end
-- ==== Proof.lean ====
/-
  The certificate of the tiled Chamfer-distance kernel against its whole-array reference.

  Both programs compute, for eight pairs of clouds of 4096 points, the squared distance of every pair of points as
  `(|x|² + |y|²) - 2·(x·y)`, its minimum over the second cloud for every point of the first and over the first cloud for
  every point of the second, and the sum of the two means. The kernel does it 256 rows at a time, carrying a running
  minimum over the rows from tile to tile; over the extended reals a minimum taken tile by tile from the start value is
  the minimum taken at once, and a sum does not depend on how its index set is laid out, so the two results are one
  term of the two clouds (`Cert.Chamfer.chamfer`). The kernel's casts of the matrix operands to bf16 are the identity
  here, and no law used needs the inputs finite. The frames of the two kernel programs are the generated ones; the
  reference's is its generated run with the result dropped; the ideal pass rewrote nothing.
-/
import proofs.«163719_j76811195121928_1_alg».proof.Defs
import proofs.«163719_j76811195121928_1_alg».proof.Proof.Gen.Kernel
import proofs.«163719_j76811195121928_1_alg».proof.Proof.Gen.Kernel.Skeleton
import proofs.«163719_j76811195121928_1_alg».proof.Proof.Gen.Kernel.Launch
import proofs.«163719_j76811195121928_1_alg».proof.Proof.Gen.Kernel.Points
import proofs.«163719_j76811195121928_1_alg».proof.Proof.Gen.Kernel.Frame
import proofs.«163719_j76811195121928_1_alg».proof.Proof.Gen.KernelIdeal
import proofs.«163719_j76811195121928_1_alg».proof.Proof.Gen.KernelIdeal.Skeleton
import proofs.«163719_j76811195121928_1_alg».proof.Proof.Gen.KernelIdeal.Launch
import proofs.«163719_j76811195121928_1_alg».proof.Proof.Gen.KernelIdeal.Points
import proofs.«163719_j76811195121928_1_alg».proof.Proof.Gen.KernelIdeal.Frame
import proofs.«163719_j76811195121928_1_alg».proof.Proof.Gen.ReferenceIdeal
import proofs.«163719_j76811195121928_1_alg».proof.Proof.Gen.ReferenceIdeal.Run
import proofs.«163719_j76811195121928_1_alg».proof.Proof.Gen.ReferenceIdeal.Read
import proofs.«163719_j76811195121928_1_alg».proof.Proof.Gen.Pre_finite_inputs
import proofs.«163719_j76811195121928_1_alg».proof.Proof.Spec
import proofs.«163719_j76811195121928_1_alg».proof.Proof.KernelValue
import proofs.«163719_j76811195121928_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the two clouds, both programs end at the Chamfer distance of those clouds. -/
theorem algebraic : Cert.algebraic_KernelIdeal_ReferenceIdeal := by
  intro m ρ m' ρ' _ hagree
  refine ⟨fun c => fun _ => Cert.Chamfer.chamfer (Cert.KernelIdeal.KValue.X1 m c) (Cert.KernelIdeal.KValue.X2 m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  funext i
  exact Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
